-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_v43 : IVec S_ 1) (main_v47 : IVec S1600000 1) (main_v51 : IVec S1600000 1) : IVec S_ 1 :=
  let main_v52 : IVec S1600000 1 := andi main_v47 main_v51
  let main_c_18 : IVec S_ 1 := constantI S_ 1 1#1
  let main_v53 : IVec S_ 1 := (fun x v => Host.reduce IntOp.andi x v reducesTo_S1600000_S_d0 h_S_) main_v52 main_c_18
  let main_v54 : IVec S_ 1 := andi main_v43 main_v53
  main_v54

def fn_part2 {F : FTy → Type} [FloatOps F] (main_arg1 : IVec S2x1600000 32) (main_arg8 : FVec F S64x64 .f32) (main_arg9 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : IVec S1x1600000 32 := (extractStridedSlice S1x1600000 ![0, 0] · slices_S2x1600000_S1x1600000_0_0) main_arg1
  let main_v45 : IVec S1600000 32 := shapeCast S1600000 main_v44 shapeCasts_S1x1600000_S1600000
  let main_c_16 : IVec S_ 32 := constantI S_ 32 0#32
  let main_v46 : IVec S1600000 32 := broadcastInDim S1600000 ![] bcast_S_S1600000 main_c_16
  let main_v47 : IVec S1600000 1 := cmpi .sge main_v45 main_v46
  let main_v48 : IVec S1x1600000 32 := (extractStridedSlice S1x1600000 ![0, 0] · slices_S2x1600000_S1x1600000_0_0) main_arg1
  let main_v49 : IVec S1600000 32 := shapeCast S1600000 main_v48 shapeCasts_S1x1600000_S1600000
  let main_c_17 : IVec S_ 32 := constantI S_ 32 100000#32
  let main_v50 : IVec S1600000 32 := broadcastInDim S1600000 ![] bcast_S_S1600000 main_c_17
  let main_v51 : IVec S1600000 1 := cmpi .slt main_v49 main_v50
  fn_part3 (F := F) main_v43 main_v47 main_v51

def fn_part1 {F : FTy → Type} [FloatOps F] (main_arg1 : IVec S2x1600000 32) (main_arg5 : FVec F S128 .f32) (main_arg6 : FVec F S128x64 .f32) (main_arg7 : FVec F S64 .f32) (main_arg8 : FVec F S64x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : FVec F S64x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S10000x128 : Shape := ⟨2, ![10000, 128]⟩
abbrev S1x128 : Shape := ⟨2, ![1, 128]⟩
abbrev S100000x64 : Shape := ⟨2, ![100000, 64]⟩
abbrev S10000x64 : Shape := ⟨2, ![10000, 64]⟩
abbrev S1x64 : Shape := ⟨2, ![1, 64]⟩

abbrev nBuf : Space → Nat
  | .hbm => 70
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1, .i32⟩
  | .hbm, ⟨23, _⟩ => ⟨S_, .i32⟩
  | .hbm, ⟨24, _⟩ => ⟨S1600000x1, .i32⟩
  | .hbm, ⟨25, _⟩ => ⟨S1600000x1, .i1⟩
  | .hbm, ⟨26, _⟩ => ⟨S1x1, .i32⟩
  | .hbm, ⟨27, _⟩ => ⟨S1600000x1, .i32⟩
  | .hbm, ⟨28, _⟩ => ⟨S1600000x1, .i1⟩
  | .hbm, ⟨29, _⟩ => ⟨S1600000x1, .i1⟩
  | .hbm, ⟨30, _⟩ => ⟨S_, .i1⟩
  | .hbm, ⟨31, _⟩ => ⟨S1600000, .i1⟩
  | .hbm, ⟨32, _⟩ => ⟨S1600000x128, .f32⟩
  | .hbm, ⟨33, _⟩ => ⟨S1600000x128, .i1⟩
  | .hbm, ⟨34, _⟩ => ⟨S_, .f32⟩
  | .hbm, ⟨35, _⟩ => ⟨S1600000x128, .f32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1, .i32⟩
  | .hbm, ⟨51, _⟩ => ⟨S_, .i32⟩
  | .hbm, ⟨52, _⟩ => ⟨S1600000x1, .i32⟩
  | .hbm, ⟨53, _⟩ => ⟨S1600000x1, .i1⟩
  | .hbm, ⟨54, _⟩ => ⟨S1x1, .i32⟩
  | .hbm, ⟨55, _⟩ => ⟨S1600000x1, .i32⟩
  | .hbm, ⟨56, _⟩ => ⟨S1600000x1, .i1⟩
  | .hbm, ⟨57, _⟩ => ⟨S1600000x1, .i1⟩
  | .hbm, ⟨58, _⟩ => ⟨S_, .i1⟩
  | .hbm, ⟨59, _⟩ => ⟨S1600000, .i1⟩
  | .hbm, ⟨60, _⟩ => ⟨S1600000x128, .f32⟩
  | .hbm, ⟨61, _⟩ => ⟨S1600000x128, .i1⟩
  | .hbm, ⟨62, _⟩ => ⟨S_, .f32⟩
  | .hbm, ⟨63, _⟩ => ⟨S1600000x128, .f32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S128x64, .f32⟩
  | .local _ .vmem, ⟨15, _⟩ => ⟨S64, .f32⟩
  | .local _ .vmem, ⟨16, _⟩ => ⟨S64x64, .f32⟩
  | .local _ .vmem, ⟨17, _⟩ => ⟨S64, .f32⟩
  | .local _ .vmem, ⟨18, _⟩ => ⟨S10000x64, .f32⟩
  | .local _ .vmem, ⟨19, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v4 : Ref sig .tc := ⟨.hbm, 36, rfl⟩
abbrev main_cst : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v9 : Ref sig .tc := ⟨.hbm, 64, rfl⟩
abbrev main_cst_0 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S10000x64_S10000x64_0_0 : ∀ a, (![0, 0] : Fin 2 → Nat) a + S10000x64.size a ≤ S10000x64.size a
  h_S10000x64 : 0 < S10000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .f32 = 32 ∨ (Rect.block (s := S100000x128) S10000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v8) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 70
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S_, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x128, .f32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S100000x64, .f32⟩
  | .hbm, ⟨60, _⟩ => ⟨S_, .f32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S100000x64, .f32⟩
  | .hbm, ⟨69, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_c_1 : Ref sig .tc := ⟨.hbm, 42, rfl⟩
abbrev main_v25 : Ref sig .tc := ⟨.hbm, 43, rfl⟩
abbrev main_v26 : Ref sig .tc := ⟨.hbm, 44, rfl⟩
abbrev main_c_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call2_cst : Ref sig .tc := ⟨.hbm, 60, rfl⟩
abbrev main_call2_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_call3_cst : Ref sig .tc := ⟨.hbm, 67, rfl⟩
abbrev main_call3_v0 : Ref sig .tc := ⟨.hbm, 68, rfl⟩
abbrev main_v45 : Ref sig .tc := ⟨.hbm, 69, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  What one graph-isomorphism layer computes after the neighbourhood sum, as a function of the arrays, index by index.

  A layer takes the node features `x` (N rows of K numbers), the aggregate `a` of the neighbours' features (same shape),
  and a two-stage perceptron: `Wa` (K × H) with bias `ba`, then `Wb` (H × O) with bias `bb`. Row `r` of the result is
      relu( relu( (x r + a r) · Wa + ba ) · Wb + bb ),
  that is, at column `c`,
      max ( Σ_k  max ( Σ_l (x r l + a r l) · Wa l k  +  ba k , 0 ) · Wb k c  +  bb c , 0 ).
  Over the extended reals the two sums are finite sums of products, `max` is the order's, and the zero is the value the
  all-zero single-precision word encodes (kept as that word: both programs carry the same word, so it is never evaluated).

  Row `r` of the result depends on row `r` of `x` and of `a` only: that is what lets a kernel compute the layer a slab of rows
  at a time (`dense_rows`).
-/
import Idealize.ShloMosaic.PureOps.Ideal
import Idealize.ShloMosaic.Lib.ValueIdx

noncomputable section

open scoped BigOperators

namespace Cert.Gin

open Idealize.ShloMosaic Idealize.ShloMosaic.ValueIdx

/-- The zero both programs compare against and start their sums from, as the word that encodes it. -/
abbrev zero32 : EReal := Ideal.ofBits .f32 0x00000000#32

/-- The row of a rank-2 index, as a number below the row count. -/
abbrev rowOf {N O : Nat} (i : (⟨2, ![N, O]⟩ : Shape).Idx) : Fin N := ⟨(i 0).val, (i 0).isLt⟩
/-- The column of a rank-2 index, as a number below the column count. -/
abbrev colOf {N O : Nat} (i : (⟨2, ![N, O]⟩ : Shape).Idx) : Fin O := ⟨(i 1).val, (i 1).isLt⟩

/-- The hidden activation of row `r` at hidden unit `k`: `relu (Σ_l (x r l + a r l) · Wa l k + ba k)`. -/
def hidden {N K H : Nat} (x a : (⟨2, ![N, K]⟩ : Shape).Idx → EReal) (Wa : (⟨2, ![K, H]⟩ : Shape).Idx → EReal)
    (ba : (⟨1, ![H]⟩ : Shape).Idx → EReal) (r : Fin N) (k : Fin H) : EReal :=
  max ((∑ l : Fin K, (x (ix2 r l) + a (ix2 r l)) * Wa (ix2 l k)) + ba (ix1 k)) zero32

/-- The layer's dense part: `relu (hidden · Wb + bb)`, index by index. -/
def dense {N K H O : Nat} (x a : (⟨2, ![N, K]⟩ : Shape).Idx → EReal) (Wa : (⟨2, ![K, H]⟩ : Shape).Idx → EReal)
    (ba : (⟨1, ![H]⟩ : Shape).Idx → EReal) (Wb : (⟨2, ![H, O]⟩ : Shape).Idx → EReal) (bb : (⟨1, ![O]⟩ : Shape).Idx → EReal) :
    (⟨2, ![N, O]⟩ : Shape).Idx → EReal :=
  fun i => max ((∑ k : Fin H, hidden x a Wa ba (rowOf i) k * Wb (ix2 k (colOf i))) + bb (ix1 (colOf i))) zero32

/-- The layer is computed row by row: if two pairs of arrays agree on one row (row `r'` of the primed pair is row `r` of
    the other), the results agree there, whatever the other rows hold and however many there are. -/
theorem dense_rows {N N' K H O : Nat} (x a : (⟨2, ![N, K]⟩ : Shape).Idx → EReal) (x' a' : (⟨2, ![N', K]⟩ : Shape).Idx → EReal)
    (Wa : (⟨2, ![K, H]⟩ : Shape).Idx → EReal) (ba : (⟨1, ![H]⟩ : Shape).Idx → EReal)
    (Wb : (⟨2, ![H, O]⟩ : Shape).Idx → EReal) (bb : (⟨1, ![O]⟩ : Shape).Idx → EReal)
    (i : (⟨2, ![N, O]⟩ : Shape).Idx) (i' : (⟨2, ![N', O]⟩ : Shape).Idx) (hc : (i' 1).val = (i 1).val)
    (hx : ∀ l : Fin K, x' (ix2 (rowOf i') l) = x (ix2 (rowOf i) l))
    (ha : ∀ l : Fin K, a' (ix2 (rowOf i') l) = a (ix2 (rowOf i) l)) :
    dense x' a' Wa ba Wb bb i' = dense x a Wa ba Wb bb i := by
  have hcol : colOf i' = colOf i := Fin.ext hc
  unfold dense hidden
  rw [hcol]
  simp only [hx, ha]

/-- The same with the perceptron's arrays allowed to differ too, as long as they agree entry by entry: the layer's entry
    at an index is a function of the entries it reads, whichever arrays hold them. -/
theorem dense_congr {N N' K H O : Nat} (x a : (⟨2, ![N, K]⟩ : Shape).Idx → EReal) (x' a' : (⟨2, ![N', K]⟩ : Shape).Idx → EReal)
    (Wa Wa' : (⟨2, ![K, H]⟩ : Shape).Idx → EReal) (ba ba' : (⟨1, ![H]⟩ : Shape).Idx → EReal)
    (Wb Wb' : (⟨2, ![H, O]⟩ : Shape).Idx → EReal) (bb bb' : (⟨1, ![O]⟩ : Shape).Idx → EReal)
    (i : (⟨2, ![N, O]⟩ : Shape).Idx) (i' : (⟨2, ![N', O]⟩ : Shape).Idx) (hc : (i' 1).val = (i 1).val)
    (hx : ∀ l : Fin K, x' (ix2 (rowOf i') l) = x (ix2 (rowOf i) l))
    (ha : ∀ l : Fin K, a' (ix2 (rowOf i') l) = a (ix2 (rowOf i) l))
    (hWa : ∀ (l : Fin K) (k : Fin H), Wa' (ix2 l k) = Wa (ix2 l k)) (hba : ∀ k : Fin H, ba' (ix1 k) = ba (ix1 k))
    (hWb : ∀ (k : Fin H) (c : Fin O), Wb' (ix2 k c) = Wb (ix2 k c)) (hbb : ∀ c : Fin O, bb' (ix1 c) = bb (ix1 c)) :
    dense x' a' Wa' ba' Wb' bb' i' = dense x a Wa ba Wb bb i := by
  have hcol : colOf i' = colOf i := Fin.ext hc
  unfold dense hidden
  rw [hcol]
  simp only [hx, ha, hWa, hba, hWb, hbb]

end Cert.Gin

end
-- ==== Proof.RefLayer.lean ====
/-
  The reference, layer by layer, is the specification's dense part.

  The reference computes each layer as host operations on whole arrays: `h = x + agg`, a `dot_general` with the first
  weight matrix, the first bias broadcast along the rows and added, a maximum with the zero array, a second
  `dot_general`, the second bias, a second maximum. Read at one index (r, c), a `dot_general` over one contracted axis is
  the finite sum over that axis of products, a bias broadcast along the rows reads the bias at the column, and the
  pointwise operations act on the elements. Composing these readings gives, for the first layer,
      max ( Σ_k max ( Σ_l (x r l + agg r l) · W1 l k + b1 k , 0 ) · W2 k c + b2 c , 0 ),
  which is `Gin.dense` of the same arrays; the second layer is the same with its own extents, its input being the
  first layer's result and its aggregate the neighbourhood sum of that result. Nothing here needs the inputs to be
  finite: the two sides are the same sums of the same products in the same order.
-/
import proofs.«404881_j50886772523363_1_alg».proof.Proof.Gen.ReferenceIdeal.Read
import proofs.«404881_j50886772523363_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The first layer's result, index by index: the dense part of the node features and their neighbourhood sum. -/
theorem layer1 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v24 (F := Ideal) x0 x1 x2 x3 x4 x5 = Cert.Gin.dense x0 (val_main_v13 (F := Ideal) x0 x1) x2 x3 x4 x5 := by
  funext i
  rw [val_main_v24_apply, val_main_v23_apply, val_main_v20_apply, val_main_v22_apply, val_main_v21_apply,
    val_main_call1_v0_apply, val_main_call1_cst_apply]
  simp only [val_main_v19_apply, val_main_v18_apply, val_main_v15_apply, val_main_v17_apply, val_main_v16_apply,
    val_main_call0_v0_apply, val_main_call0_cst_apply, val_main_v14_apply]
  -- the operand indices the readings compose are the row's and the column's
  have e1 : ∀ k l : Fin 128, lidx_main_v15 (lidx_main_v20 i k) l = ix2 (Cert.Gin.rowOf i) l := fun k l =>
    funext fun a => by match a with | ⟨0, _⟩ => rfl | ⟨1, _⟩ => rfl
  have e2 : ∀ k l : Fin 128, ridx_main_v15 (lidx_main_v20 i k) l = ix2 l k := fun k l =>
    funext fun a => by match a with | ⟨0, _⟩ => rfl | ⟨1, _⟩ => rfl
  have e3 : ∀ k : Fin 128, idx_main_v16 (idx_main_v17 (lidx_main_v20 i k)) = ix1 k := fun k =>
    funext fun a => by match a with | ⟨0, _⟩ => rfl
  have e4 : ∀ k : Fin 128, ridx_main_v20 i k = ix2 k (Cert.Gin.colOf i) := fun k =>
    funext fun a => by match a with | ⟨0, _⟩ => rfl | ⟨1, _⟩ => rfl
  have e5 : idx_main_v21 (idx_main_v22 i) = ix1 (Cert.Gin.colOf i) :=
    funext fun a => by match a with | ⟨0, _⟩ => rfl
  simp only [e1, e2, e3, e4, e5]
  rfl

/-- The second layer's result, index by index: the dense part of the first layer's result and of its neighbourhood sum. -/
theorem layer2 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal)) :
    val_main_v45 (F := Ideal) x0 x1 x2 x3 x4 x5 x6 x7 x8 x9
      = Cert.Gin.dense (val_main_v24 (F := Ideal) x0 x1 x2 x3 x4 x5) (val_main_v34 (F := Ideal) x0 x1 x2 x3 x4 x5) x6 x7 x8 x9 := by
  funext i
  rw [val_main_v45_apply, val_main_v44_apply, val_main_v41_apply, val_main_v43_apply, val_main_v42_apply,
    val_main_call3_v0_apply, val_main_call3_cst_apply]
  simp only [val_main_v40_apply, val_main_v39_apply, val_main_v36_apply, val_main_v38_apply, val_main_v37_apply,
    val_main_call2_v0_apply, val_main_call2_cst_apply, val_main_v35_apply]
  have e1 : ∀ (k : Fin 64) (l : Fin 128), lidx_main_v36 (lidx_main_v41 i k) l = ix2 (Cert.Gin.rowOf i) l := fun k l =>
    funext fun a => by match a with | ⟨0, _⟩ => rfl | ⟨1, _⟩ => rfl
  have e2 : ∀ (k : Fin 64) (l : Fin 128), ridx_main_v36 (lidx_main_v41 i k) l = ix2 l k := fun k l =>
    funext fun a => by match a with | ⟨0, _⟩ => rfl | ⟨1, _⟩ => rfl
  have e3 : ∀ k : Fin 64, idx_main_v37 (idx_main_v38 (lidx_main_v41 i k)) = ix1 k := fun k =>
    funext fun a => by match a with | ⟨0, _⟩ => rfl
  have e4 : ∀ k : Fin 64, ridx_main_v41 i k = ix2 k (Cert.Gin.colOf i) := fun k =>
    funext fun a => by match a with | ⟨0, _⟩ => rfl | ⟨1, _⟩ => rfl
  have e5 : idx_main_v42 (idx_main_v43 i) = ix1 (Cert.Gin.colOf i) :=
    funext fun a => by match a with | ⟨0, _⟩ => rfl
  simp only [e1, e2, e3, e4, e5]
  rfl

end Cert.ReferenceIdeal.RefValue

end
-- ==== Proof.HostDefs.lean ====
/-
  The kernel program's host side, as functions of the arrays.

  Between its two pallas_calls the kernel program computes, on the host, the neighbourhood sum of a feature array `h`
  over the edge list: row 0 of `edge_index` holds each edge's source node (`src`), row 1 its destination node (`dst`). A
  source index is wrapped once if negative (`wrapIdx`: `s < 0 ? s + 100000 : s`, kept as a column); `jnp.take` gathers row
  `wrapIdx s` of `h` for every edge and replaces the rows whose wrapped index falls outside 0 … 99999 (`inRange`: both
  comparisons, reduced by `and` along the column's unit axis) by a fill value (`takeFill`); the gathered rows are added
  into a zero array at their destination rows (`scatterRows`). `agg` is the same neighbourhood sum without the guard:
  what the reference computes, and what `takeFill` comes to when every source index is in range.
-/
import proofs.«404881_j50886772523363_1_alg».proof.Proof.Gen.KernelIdeal

noncomputable section

namespace Cert.KernelIdeal.HostSide

open Cert.KernelIdeal Cert.KernelIdeal.Gen Idealize.ShloMosaic

variable {F : FTy → Type} [FloatOps F]

/-- The edges' source nodes: row 0 of the edge list. -/
def src (e : IVec S2x1600000 32) : IVec S1600000 32 :=
  shapeCast S1600000 (extractStridedSlice S1x1600000 ![0, 0] e slices_S2x1600000_S1x1600000_0_0) shapeCasts_S1x1600000_S1600000
/-- The edges' destination nodes: row 1 of the edge list. -/
def dst (e : IVec S2x1600000 32) : IVec S1600000 32 :=
  shapeCast S1600000 (extractStridedSlice S1x1600000 ![1, 0] e slices_S2x1600000_S1x1600000_1_0) shapeCasts_S1x1600000_S1600000
/-- A node index wrapped once if negative, as a column of start indices. -/
def wrapIdx (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)
/-- Per edge: does the start index lie in 0 … 99999? -/
def inRange (ix : IVec S1600000x1 32) : IVec S1600000 1 :=
  Host.reduce IntOp.andi
    (andi (cmpi .sge ix (broadcastInDim S1600000x1 ![] bcast_S_S1600000x1 (constantI S_ 32 0#32)))
      (cmpi .sle ix (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_
/-- The guarded row gather: row `ix` of `h` per edge where `ix` is in range, the fill value elsewhere. -/
def takeFill (h : FVec F S100000x128 .f32) (ix : IVec S1600000x1 32) : FVec F S1600000x128 .f32 :=
  select (broadcastInDim S1600000x128 ![0] bcast_S1600000_S1600000x128_0 (inRange ix))
    (Host.gather gather_S100000x128_S1600000x1_S1600000x128_1_0_n_n_0_1_1128 h ix)
    (broadcastInDim S1600000x128 ![] bcast_S_S1600000x128 (constant S_ .f32 0x7FC00000#32))
/-- The per-edge rows `u` added into a zero array at their destination rows. -/
def scatterRows (d : IVec S1600000 32) (u : FVec F S1600000x128 .f32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d) u
/-- The neighbourhood sum of `h` over the edge list `e`, unguarded: the sum over the edges into each node of the source
    node's row. -/
def agg (h : FVec F S100000x128 .f32) (e : IVec S2x1600000 32) : FVec F S100000x128 .f32 :=
  scatterRows (dst e) (Host.gather gather_S100000x128_S1600000x1_S1600000x128_1_0_n_n_0_1_1128 h (wrapIdx (src e)))

end Cert.KernelIdeal.HostSide

end
-- ==== Proof.Bridge.lean ====
/-
  The reference's neighbourhood sums are the kernel program's, without the guard.

  Both programs compute the neighbourhood sum of a feature array from the same edge list by the same host operations:
  the source row of the edge list wrapped once where negative, a row gather at those indices, and a scatter-add of the
  gathered rows into a zero array at the destination row's indices. The reference writes them inline, twice (once per
  layer, on the node features and on the first layer's result); the kernel program's versions are named in
  `HostSide`. They are the same operations on the same operands, so each of the reference's two stages IS `HostSide.agg`
  of its feature array and the edge list.
-/
import proofs.«404881_j50886772523363_1_alg».proof.Proof.HostDefs
import proofs.«404881_j50886772523363_1_alg».proof.Proof.Gen.ReferenceIdeal.Read

noncomputable section

namespace Cert.ReferenceIdeal.RefValue

open Cert.ReferenceIdeal Cert.ReferenceIdeal.Gen Cert.ReferenceIdeal.Read Idealize.ShloMosaic

variable {F : FTy → Type} [FloatOps F]

/-- The first layer's neighbourhood sum: of the node features. -/
theorem agg1_eq (x0 : (⟨S100000x128, .f32⟩ : BufTy).Contents (Elt F)) (x1 : (⟨S2x1600000, .i32⟩ : BufTy).Contents (Elt F)) :
    val_main_v13 (F := F) x0 x1 = Cert.KernelIdeal.HostSide.agg (F := F) x0 x1 := by
  unfold val_main_v13 val_main_v12 val_main_v11 val_main_v10 val_main_v9 val_main_v8 val_main_v7 val_main_v6 val_main_v5
    val_main_v4 val_main_v3 val_main_v2 val_main_v1 val_main_v0 val_main_c val_main_c_0 val_main_cst
  unfold Cert.KernelIdeal.HostSide.agg Cert.KernelIdeal.HostSide.scatterRows Cert.KernelIdeal.HostSide.wrapIdx
    Cert.KernelIdeal.HostSide.src Cert.KernelIdeal.HostSide.dst
  rfl

/-- The second layer's neighbourhood sum: of the first layer's result. -/
theorem agg2_eq (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) (x5 : (⟨S128, .f32⟩ : BufTy).Contents (Elt F)) :
    val_main_v34 (F := F) x0 x1 x2 x3 x4 x5
      = Cert.KernelIdeal.HostSide.agg (F := F) (val_main_v24 (F := F) x0 x1 x2 x3 x4 x5) x1 := by
  unfold val_main_v34 val_main_v33 val_main_v32 val_main_v31 val_main_v30 val_main_v29 val_main_v28 val_main_v27 val_main_v26
    val_main_v25 val_main_v3 val_main_v2 val_main_v1 val_main_v0 val_main_c_1 val_main_c_2 val_main_cst_3
  generalize val_main_v24 (F := F) x0 x1 x2 x3 x4 x5 = h
  unfold Cert.KernelIdeal.HostSide.agg Cert.KernelIdeal.HostSide.scatterRows Cert.KernelIdeal.HostSide.wrapIdx
    Cert.KernelIdeal.HostSide.src Cert.KernelIdeal.HostSide.dst
  rfl

end Cert.ReferenceIdeal.RefValue

end
-- ==== Proof.KernelDots.lean ====
/-
  A matrix product into a zero accumulator, read at an index.

  Each `tpu.matmul` of the two kernel bodies contracts the second axis of its left operand [M, K] with the first axis
  of its right operand [K, N] and adds into a zero accumulator. Over the extended reals its entry at row `p` and column
  `q` is the sum over the contracted axis `k` of `l p k · r k q`: the accumulator's zero is the additive unit, and the
  operand indices the product's dimension record computes at (p, q) and `k` are (p, k) and (k, q). The statement is
  proved once for the plain dimension record at any extents; the kernel's three records are that record at their
  extents.
-/
import proofs.«404881_j50886772523363_1_alg».proof.Proof.Gen.KernelIdeal
import proofs.«404881_j50886772523363_1_alg».proof.Proof.Spec
import Idealize.ShloMosaic.Lib.ValueIdx
import Idealize.ShloMosaic.PureOps.Ideal.Laws

noncomputable section

open scoped BigOperators

namespace Cert.KernelIdeal.Dots

open Cert.KernelIdeal Idealize.ShloMosaic Idealize.ShloMosaic.ValueIdx

/-! ## The operand indices of a plain product -/

theorem lhs_plain_0 (M K N : Nat) (i : (⟨2, ![M, N]⟩ : Shape).Idx) (q : (DotDims.plain M K N).contr.Idx) :
    ((DotDims.plain M K N).lhsIdx i q 0).val = (i 0).val := rfl
theorem lhs_plain_1 (M K N : Nat) (i : (⟨2, ![M, N]⟩ : Shape).Idx) (q : (DotDims.plain M K N).contr.Idx) :
    ((DotDims.plain M K N).lhsIdx i q 1).val = (q ⟨0, Nat.one_pos⟩).val := rfl
theorem rhs_plain_0 (M K N : Nat) (i : (⟨2, ![M, N]⟩ : Shape).Idx) (q : (DotDims.plain M K N).contr.Idx) :
    ((DotDims.plain M K N).rhsIdx i q 0).val = (q ⟨0, Nat.one_pos⟩).val := rfl
theorem rhs_plain_1 (M K N : Nat) (i : (⟨2, ![M, N]⟩ : Shape).Idx) (q : (DotDims.plain M K N).contr.Idx) :
    ((DotDims.plain M K N).rhsIdx i q 1).val = (i 1).val := rfl

/-- The product into a zero accumulator, at an index: the sum over the contracted axis of the left operand's row times
    the right operand's column. -/
theorem matmul_plain_apply (M K N : Nat) {φ₁ φ₂ : FTy} (l : FVec Ideal ⟨2, ![M, K]⟩ φ₁) (r : FVec Ideal ⟨2, ![K, N]⟩ φ₂)
    (i : (⟨2, ![M, N]⟩ : Shape).Idx) :
    matmul (DotDims.plain M K N) none l r (constant ⟨2, ![M, N]⟩ .f32 0x00000000#32) i
      = ∑ k : Fin K, l (ix2 (Cert.Gin.rowOf i) k) * r (ix2 k (Cert.Gin.colOf i)) := by
  show FloatOps.matmul (DotDims.plain M K N) none l r (constant ⟨2, ![M, N]⟩ .f32 0x00000000#32) i = _
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx i ((ValueIdx.contrEquiv1 (DotDims.plain M K N) K rfl rfl).symm k)
      = ix2 (Cert.Gin.rowOf i) k := funext fun a => Fin.ext (by
    match a with
    | ⟨0, _⟩ => exact lhs_plain_0 M K N _ _
    | ⟨1, _⟩ => exact (lhs_plain_1 M K N _ _).trans hk)
  have er : (DotDims.plain M K N).rhsIdx i ((ValueIdx.contrEquiv1 (DotDims.plain M K N) K rfl rfl).symm k)
      = ix2 k (Cert.Gin.colOf i) := funext fun a => Fin.ext (by
    match a with
    | ⟨0, _⟩ => exact (rhs_plain_0 M K N _ _).trans hk
    | ⟨1, _⟩ => exact rhs_plain_1 M K N _ _)
  rw [el, er]

/-! ## The kernel's three dimension records are plain -/

theorem dot_a : dot_S10000x128_S128x128_S10000x128_1_0_0_1_n_n = DotDims.plain 10000 128 128 := rfl
theorem dot_b : dot_S10000x128_S128x64_S10000x64_1_0_0_1_n_n = DotDims.plain 10000 128 64 := rfl
theorem dot_c : dot_S10000x64_S64x64_S10000x64_1_0_0_1_n_n = DotDims.plain 10000 64 64 := rfl

end Cert.KernelIdeal.Dots

end
-- ==== Proof.Body0.lean ====
/-
  What pallas_call 0 leaves in its result array: one graph layer's dense part of the arrays it is given.

  The call walks the node axis in ten slabs of 10000 rows. At slab `t` the body loads rows 10000·t … 10000·t + 9999 of its
  two row-wise operands (the features and their neighbourhood sum), the whole of the two weight matrices and the two
  biases, and stores
      relu( relu( (x + a) · Wa + ba ) · Wb + bb )
  for those rows into the slab's rows of the result. The format changes to bfloat16 in front of each product are the
  identity over the extended reals, each product into a zero accumulator is the plain sum of products, and a bias cast
  to one row and repeated along the rows reads the bias at the column. So the stored slab is `Gin.dense` of the loaded
  slabs (`pay_eq`). Since the layer's row `r` depends on row `r` of the operands only, that is the slab's rows of
  `Gin.dense` of the WHOLE operand arrays (`flushed_eq`); the ten slabs tile the result array (`cover`), so the array ends
  holding `Gin.dense` of the operand arrays as the call found them (`final`). The call's entry contents are a parameter
  `V`: nothing here depends on what ran before the call.
-/
import proofs.«404881_j50886772523363_1_alg».proof.Proof.Gen.KernelIdeal.Frame
import proofs.«404881_j50886772523363_1_alg».proof.Proof.KernelDots
import Idealize.ShloMosaic.Lib.Pipeline.Value
import Idealize.ShloMosaic.Lib.ValueLayout

set_option maxRecDepth 16384

noncomputable section

open scoped BigOperators

namespace Cert.KernelIdeal.Body0

open Cert.KernelIdeal Cert.KernelIdeal.Gen Idealize.ShloMosaic Idealize.ShloMosaic.ValueIdx Idealize.ShloMosaic.TcCoe
open Idealize.SL.Sem
open Idealize.ShloMosaic.Pipeline (Dat)

/-! ## The body's stored value -/

/-- A bias vector cast to one row and repeated along the rows reads, at (p, c), the bias at c. -/
theorem bias_apply {a b : ℕ} (v : (⟨1, ![b]⟩ : Shape).Idx → EReal) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- The value the body stores is the layer's dense part of the six loaded blocks. -/
theorem pay_eq (x a : Vec Ideal S10000x128 .f32) (Wa : Vec Ideal S128x128 .f32) (ba : Vec Ideal S128 .f32)
    (Wb : Vec Ideal S128x128 .f32) (bb : Vec Ideal S128 .f32) :
    k0_pay1 (F := Ideal) x a Wa ba Wb bb = Cert.Gin.dense x a Wa ba Wb bb := by
  funext j
  obtain ⟨p, q, rfl⟩ : ∃ (p : Fin 10000) (q : Fin 128), j = ix2 p q := ⟨j 0, j 1, eq_ix2 j⟩
  unfold k0_pay1
  rw [maximumf_apply, addf_apply, Dots.dot_a, Dots.matmul_plain_apply, bias_apply, broadcast_apply]
  unfold Cert.Gin.dense
  refine congrArg₂ max (congrArg₂ (· + ·) (Finset.sum_congr rfl fun k _ => congrArg₂ (· * ·) ?_ rfl) rfl) rfl
  rw [truncf_apply, maximumf_apply, addf_apply, Dots.matmul_plain_apply, bias_apply, broadcast_apply]
  unfold Cert.Gin.hidden
  refine congrArg₂ max (congrArg₂ (· + ·) (Finset.sum_congr rfl fun l _ => ?_) rfl) rfl
  rw [truncf_apply, truncf_apply, addf_apply, shapeCast_self]

/-! ## From slabs to the array -/

variable (V : (c : Dev nD) → (b : Ref sig .tc) → Buf (Elt Ideal) ((c : Thread nD τ).loc b))

/-- What the call leaves in its result array: the dense part of its six operand arrays as the call finds them. -/
def result (c : Dev nD) : S100000x128.Idx → EReal :=
  Cert.Gin.dense (N := 100000) (K := 128) (H := 128) (O := 128) (V c main_arg0) (V c main_v7) (V c main_arg2) (V c main_arg3) (V c main_arg4) (V c main_arg5)

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the two row-wise operands and the result are at slab `t`, column block 0;
    the weights and biases are at block 0 throughout. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Every slab of the result is some point's. -/
theorem idx_onto : ∀ q0 : Fin 10, ∃ t : Fin cfg0.N, win0_6.index t = ![q0.val, 0] :=
  (by decide +kernel : ∀ q0 : Fin 10, ∃ t : Fin grid0.N, win0_6.index t = ![q0.val, 0])

/-- WHAT POINT `t` WRITES BACK is slab `t` of the layer's dense part of the operand arrays. -/
theorem flushed_eq (c : Dev nD) (t : Fin cfg0.N) :
    (dat0 V c).flushed 6 t = ((cfg0.win 6).blk t).view.read (Elt Ideal) (result V c) := by
  show (cfg0.win 6).cut (grid0.coords t) ((dat0 V c).after 6 t) = _
  rw [after0_6]
  unfold out0_6
  rw [View.canon_unit_zero hz2]
  simp only [View.ld_unit_zero (S := S10000x128) hz2, View.ld_unit_zero (S := S128x128) hz2, View.ld_unit_zero (S := S128) hz1]
  rw [pay_eq]
  obtain ⟨e00, e01, e10, e11, e20, e21, e30, e40, e41, e50, e60, e61⟩ := idx_facts t
  funext j
  have hj0 : (j 0).val < 10000 := (j 0).isLt
  have hj1 : (j 1).val < 128 := (j 1).isLt
  show Cert.Gin.dense (N := 10000) (K := 128) (H := 128) (O := 128) (iblk0 V c 0 t) (iblk0 V c 1 t) (iblk0 V c 2 t) (iblk0 V c 3 t) (iblk0 V c 4 t) (iblk0 V c 5 t) j
    = result V c (((cfg0.win 6).blk t).view.emb j)
  unfold result
  refine Cert.Gin.dense_congr (N := 100000) (N' := 10000) (K := 128) (H := 128) (O := 128)
    (V c main_arg0) (V c main_v7) (iblk0 V c 0 t) (iblk0 V c 1 t) (V c main_arg2) (iblk0 V c 2 t) (V c main_arg3) (iblk0 V c 3 t)
    (V c main_arg4) (iblk0 V c 4 t) (V c main_arg5) (iblk0 V c 5 t) (((cfg0.win 6).blk t).view.emb j) j ?_ ?_ ?_ ?_ ?_ ?_ ?_
  · show (j 1).val = win0_6.index t (1 : Fin 2) * 128 + 1 * (j 1).val
    omega
  · intro l
    have hl : l.val < 128 := l.isLt
    show V c main_arg0 (((cfg0.win 0).blk t).view.emb (ix2 (Cert.Gin.rowOf j) l)) = V c main_arg0 (ix2 (Cert.Gin.rowOf (((cfg0.win 6).blk t).view.emb j)) l)
    refine congrArg (V c main_arg0) (funext fun ax => Fin.ext ?_)
    match ax with
    | ⟨0, _⟩ => show win0_0.index t (0 : Fin 2) * 10000 + 1 * (j 0).val = win0_6.index t (0 : Fin 2) * 10000 + 1 * (j 0).val; omega
    | ⟨1, _⟩ => show win0_0.index t (1 : Fin 2) * 128 + 1 * l.val = l.val; omega
  · intro l
    have hl : l.val < 128 := l.isLt
    show V c main_v7 (((cfg0.win 1).blk t).view.emb (ix2 (Cert.Gin.rowOf j) l)) = V c main_v7 (ix2 (Cert.Gin.rowOf (((cfg0.win 6).blk t).view.emb j)) l)
    refine congrArg (V c main_v7) (funext fun ax => Fin.ext ?_)
    match ax with
    | ⟨0, _⟩ => show win0_1.index t (0 : Fin 2) * 10000 + 1 * (j 0).val = win0_6.index t (0 : Fin 2) * 10000 + 1 * (j 0).val; omega
    | ⟨1, _⟩ => show win0_1.index t (1 : Fin 2) * 128 + 1 * l.val = l.val; omega
  · intro l k
    show V c main_arg2 (((cfg0.win 2).blk t).view.emb (ix2 l k)) = V c main_arg2 (ix2 l k)
    refine congrArg (V c main_arg2) (funext fun ax => Fin.ext ?_)
    match ax with
    | ⟨0, _⟩ => show win0_2.index t (0 : Fin 2) * 128 + 1 * l.val = l.val; omega
    | ⟨1, _⟩ => show win0_2.index t (1 : Fin 2) * 128 + 1 * k.val = k.val; omega
  · intro k
    show V c main_arg3 (((cfg0.win 3).blk t).view.emb (ix1 k)) = V c main_arg3 (ix1 k)
    refine congrArg (V c main_arg3) (funext fun ax => Fin.ext ?_)
    match ax with
    | ⟨0, _⟩ => show win0_3.index t (0 : Fin 1) * 128 + 1 * k.val = k.val; omega
  · intro k q
    show V c main_arg4 (((cfg0.win 4).blk t).view.emb (ix2 k q)) = V c main_arg4 (ix2 k q)
    refine congrArg (V c main_arg4) (funext fun ax => Fin.ext ?_)
    match ax with
    | ⟨0, _⟩ => show win0_4.index t (0 : Fin 2) * 128 + 1 * k.val = k.val; omega
    | ⟨1, _⟩ => show win0_4.index t (1 : Fin 2) * 128 + 1 * q.val = q.val; omega
  · intro q
    show V c main_arg5 (((cfg0.win 5).blk t).view.emb (ix1 q)) = V c main_arg5 (ix1 q)
    refine congrArg (V c main_arg5) (funext fun ax => Fin.ext ?_)
    match ax with
    | ⟨0, _⟩ => show win0_5.index t (0 : Fin 1) * 128 + 1 * q.val = q.val; omega

/-- An index of the result array is in point `t`'s slab iff each coordinate is in the slab's range on its axis. -/
theorem mem_blk (t : Fin cfg0.N) (i : S100000x128.Idx) :
    i ∈ ((cfg0.win 6).blk t).view.set ↔ ∀ a : Fin 2, win0_6.index t a * S10000x128.size a ≤ (i a).val ∧ (i a).val < win0_6.index t a * S10000x128.size a + S10000x128.size a := by
  show i ∈ ((View.whole main_v8).slice (win0_6.rect t)).set ↔ _
  rw [View.set_slice_whole, Rect.mem_set_unit]
  exact Iff.rfl

/-- The ten slabs tile the result array: row `r` lies in slab `r / 10000`. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := idx_onto ⟨(i 0).val / 10000, by omega⟩
  have q0 : win0_6.index t (0 : Fin 2) = (i 0).val / 10000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 128 ≤ (i 1).val ∧ (i 1).val < win0_6.index t (1 : Fin 2) * 128 + 128; omega

/-- THE RESULT ARRAY after the call: the layer's dense part of the operand arrays as the call found them. -/
theorem final (c : Dev nD) : (dat0 V c).arrAt 6 cfg0.N = result V c :=
  (dat0 V c).arrAt_eq_of_cover 6 (result V c) (fun t _ => flushed_eq V c t) (cover)

end Cert.KernelIdeal.Body0

end
-- ==== Proof.Body1.lean ====
/-
  What pallas_call 1 leaves in its result array: one graph layer's dense part of the arrays it is given.

  The call walks the node axis in ten slabs of 10000 rows. At slab `t` the body loads rows 10000·t … 10000·t + 9999 of its
  two row-wise operands (the features and their neighbourhood sum), the whole of the two weight matrices and the two
  biases, and stores
      relu( relu( (x + a) · Wa + ba ) · Wb + bb )
  for those rows into the slab's rows of the result. The format changes to bfloat16 in front of each product are the
  identity over the extended reals, each product into a zero accumulator is the plain sum of products, and a bias cast
  to one row and repeated along the rows reads the bias at the column. So the stored slab is `Gin.dense` of the loaded
  slabs (`pay_eq`). Since the layer's row `r` depends on row `r` of the operands only, that is the slab's rows of
  `Gin.dense` of the WHOLE operand arrays (`flushed_eq`); the ten slabs tile the result array (`cover`), so the array ends
  holding `Gin.dense` of the operand arrays as the call found them (`final`). The call's entry contents are a parameter
  `V`: nothing here depends on what ran before the call.
-/
import proofs.«404881_j50886772523363_1_alg».proof.Proof.Gen.KernelIdeal.Frame
import proofs.«404881_j50886772523363_1_alg».proof.Proof.KernelDots
import Idealize.ShloMosaic.Lib.Pipeline.Value
import Idealize.ShloMosaic.Lib.ValueLayout

set_option maxRecDepth 16384

noncomputable section

open scoped BigOperators

namespace Cert.KernelIdeal.Body1

open Cert.KernelIdeal Cert.KernelIdeal.Gen Idealize.ShloMosaic Idealize.ShloMosaic.ValueIdx Idealize.ShloMosaic.TcCoe
open Idealize.SL.Sem
open Idealize.ShloMosaic.Pipeline (Dat)

/-! ## The body's stored value -/

/-- A bias vector cast to one row and repeated along the rows reads, at (p, c), the bias at c. -/
theorem bias_apply {a b : ℕ} (v : (⟨1, ![b]⟩ : Shape).Idx → EReal) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- The value the body stores is the layer's dense part of the six loaded blocks. -/
theorem pay_eq (x a : Vec Ideal S10000x128 .f32) (Wa : Vec Ideal S128x64 .f32) (ba : Vec Ideal S64 .f32)
    (Wb : Vec Ideal S64x64 .f32) (bb : Vec Ideal S64 .f32) :
    k1_pay1 (F := Ideal) x a Wa ba Wb bb = Cert.Gin.dense x a Wa ba Wb bb := by
  funext j
  obtain ⟨p, q, rfl⟩ : ∃ (p : Fin 10000) (q : Fin 64), j = ix2 p q := ⟨j 0, j 1, eq_ix2 j⟩
  unfold k1_pay1
  rw [maximumf_apply, addf_apply, Dots.dot_c, Dots.matmul_plain_apply, bias_apply, broadcast_apply]
  unfold Cert.Gin.dense
  refine congrArg₂ max (congrArg₂ (· + ·) (Finset.sum_congr rfl fun k _ => congrArg₂ (· * ·) ?_ rfl) rfl) rfl
  rw [truncf_apply, maximumf_apply, addf_apply, Dots.dot_b, Dots.matmul_plain_apply, bias_apply, broadcast_apply]
  unfold Cert.Gin.hidden
  refine congrArg₂ max (congrArg₂ (· + ·) (Finset.sum_congr rfl fun l _ => ?_) rfl) rfl
  rw [truncf_apply, truncf_apply, addf_apply, shapeCast_self, shapeCast_self]

/-! ## From slabs to the array -/

variable (V : (c : Dev nD) → (b : Ref sig .tc) → Buf (Elt Ideal) ((c : Thread nD τ).loc b))

/-- What the call leaves in its result array: the dense part of its six operand arrays as the call finds them. -/
def result (c : Dev nD) : S100000x64.Idx → EReal :=
  Cert.Gin.dense (N := 100000) (K := 128) (H := 64) (O := 64) (V c main_v8) (V c main_v12) (V c main_arg6) (V c main_arg7) (V c main_arg8) (V c main_arg9)

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the two row-wise operands and the result are at slab `t`, column block 0;
    the weights and biases are at block 0 throughout. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Every slab of the result is some point's. -/
theorem idx_onto : ∀ q0 : Fin 10, ∃ t : Fin cfg1.N, win1_6.index t = ![q0.val, 0] :=
  (by decide +kernel : ∀ q0 : Fin 10, ∃ t : Fin grid1.N, win1_6.index t = ![q0.val, 0])

/-- WHAT POINT `t` WRITES BACK is slab `t` of the layer's dense part of the operand arrays. -/
theorem flushed_eq (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6]
  unfold out1_6
  rw [View.canon_unit_zero hz2]
  simp only [View.ld_unit_zero (S := S10000x128) hz2, View.ld_unit_zero (S := S128x64) hz2, View.ld_unit_zero (S := S64) hz1, View.ld_unit_zero (S := S64x64) hz2]
  rw [pay_eq]
  obtain ⟨e00, e01, e10, e11, e20, e21, e30, e40, e41, e50, e60, e61⟩ := idx_facts t
  funext j
  have hj0 : (j 0).val < 10000 := (j 0).isLt
  have hj1 : (j 1).val < 64 := (j 1).isLt
  show Cert.Gin.dense (N := 10000) (K := 128) (H := 64) (O := 64) (iblk1 V c 0 t) (iblk1 V c 1 t) (iblk1 V c 2 t) (iblk1 V c 3 t) (iblk1 V c 4 t) (iblk1 V c 5 t) j
    = result V c (((cfg1.win 6).blk t).view.emb j)
  unfold result
  refine Cert.Gin.dense_congr (N := 100000) (N' := 10000) (K := 128) (H := 64) (O := 64)
    (V c main_v8) (V c main_v12) (iblk1 V c 0 t) (iblk1 V c 1 t) (V c main_arg6) (iblk1 V c 2 t) (V c main_arg7) (iblk1 V c 3 t)
    (V c main_arg8) (iblk1 V c 4 t) (V c main_arg9) (iblk1 V c 5 t) (((cfg1.win 6).blk t).view.emb j) j ?_ ?_ ?_ ?_ ?_ ?_ ?_
  · show (j 1).val = win1_6.index t (1 : Fin 2) * 64 + 1 * (j 1).val
    omega
  · intro l
    have hl : l.val < 128 := l.isLt
    show V c main_v8 (((cfg1.win 0).blk t).view.emb (ix2 (Cert.Gin.rowOf j) l)) = V c main_v8 (ix2 (Cert.Gin.rowOf (((cfg1.win 6).blk t).view.emb j)) l)
    refine congrArg (V c main_v8) (funext fun ax => Fin.ext ?_)
    match ax with
    | ⟨0, _⟩ => show win1_0.index t (0 : Fin 2) * 10000 + 1 * (j 0).val = win1_6.index t (0 : Fin 2) * 10000 + 1 * (j 0).val; omega
    | ⟨1, _⟩ => show win1_0.index t (1 : Fin 2) * 128 + 1 * l.val = l.val; omega
  · intro l
    have hl : l.val < 128 := l.isLt
    show V c main_v12 (((cfg1.win 1).blk t).view.emb (ix2 (Cert.Gin.rowOf j) l)) = V c main_v12 (ix2 (Cert.Gin.rowOf (((cfg1.win 6).blk t).view.emb j)) l)
    refine congrArg (V c main_v12) (funext fun ax => Fin.ext ?_)
    match ax with
    | ⟨0, _⟩ => show win1_1.index t (0 : Fin 2) * 10000 + 1 * (j 0).val = win1_6.index t (0 : Fin 2) * 10000 + 1 * (j 0).val; omega
    | ⟨1, _⟩ => show win1_1.index t (1 : Fin 2) * 128 + 1 * l.val = l.val; omega
  · intro l k
    show V c main_arg6 (((cfg1.win 2).blk t).view.emb (ix2 l k)) = V c main_arg6 (ix2 l k)
    refine congrArg (V c main_arg6) (funext fun ax => Fin.ext ?_)
    match ax with
    | ⟨0, _⟩ => show win1_2.index t (0 : Fin 2) * 128 + 1 * l.val = l.val; omega
    | ⟨1, _⟩ => show win1_2.index t (1 : Fin 2) * 64 + 1 * k.val = k.val; omega
  · intro k
    show V c main_arg7 (((cfg1.win 3).blk t).view.emb (ix1 k)) = V c main_arg7 (ix1 k)
    refine congrArg (V c main_arg7) (funext fun ax => Fin.ext ?_)
    match ax with
    | ⟨0, _⟩ => show win1_3.index t (0 : Fin 1) * 64 + 1 * k.val = k.val; omega
  · intro k q
    show V c main_arg8 (((cfg1.win 4).blk t).view.emb (ix2 k q)) = V c main_arg8 (ix2 k q)
    refine congrArg (V c main_arg8) (funext fun ax => Fin.ext ?_)
    match ax with
    | ⟨0, _⟩ => show win1_4.index t (0 : Fin 2) * 64 + 1 * k.val = k.val; omega
    | ⟨1, _⟩ => show win1_4.index t (1 : Fin 2) * 64 + 1 * q.val = q.val; omega
  · intro q
    show V c main_arg9 (((cfg1.win 5).blk t).view.emb (ix1 q)) = V c main_arg9 (ix1 q)
    refine congrArg (V c main_arg9) (funext fun ax => Fin.ext ?_)
    match ax with
    | ⟨0, _⟩ => show win1_5.index t (0 : Fin 1) * 64 + 1 * q.val = q.val; omega

/-- An index of the result array is in point `t`'s slab iff each coordinate is in the slab's range on its axis. -/
theorem mem_blk (t : Fin cfg1.N) (i : S100000x64.Idx) :
    i ∈ ((cfg1.win 6).blk t).view.set ↔ ∀ a : Fin 2, win1_6.index t a * S10000x64.size a ≤ (i a).val ∧ (i a).val < win1_6.index t a * S10000x64.size a + S10000x64.size a := by
  show i ∈ ((View.whole main_v13).slice (win1_6.rect t)).set ↔ _
  rw [View.set_slice_whole, Rect.mem_set_unit]
  exact Iff.rfl

/-- The ten slabs tile the result array: row `r` lies in slab `r / 10000`. -/
theorem cover (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ := idx_onto ⟨(i 0).val / 10000, by omega⟩
  have q0 : win1_6.index t (0 : Fin 2) = (i 0).val / 10000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 64 ≤ (i 1).val ∧ (i 1).val < win1_6.index t (1 : Fin 2) * 64 + 64; omega

/-- THE RESULT ARRAY after the call: the layer's dense part of the operand arrays as the call found them. -/
theorem final (c : Dev nD) : (dat1 V c).arrAt 6 cfg1.N = result V c :=
  (dat1 V c).arrAt_eq_of_cover 6 (result V c) (fun t _ => flushed_eq V c t) (cover)

end Cert.KernelIdeal.Body1

end
-- ==== Proof.HostStages.lean ====
/-
  What the kernel program's host stretches leave in the buffers the two pallas_calls read.

  @main of the kernel program is five stretches of host operations around two pallas_calls. Each stretch is read here as
  a function of the buffer contents `W` it starts from: the first slices the edge list into its source and destination
  rows; the second (`jnp.take`, outlined) is the guarded row gather of `HostSide.takeFill`; the third scatters the
  gathered rows (`HostSide.scatterRows`); the fourth and fifth are the second and third again on the first call's result.
  A stretch leaves every buffer it does not write as it was. Composing the stretches from the launch memory gives the
  contents of each operand array of the two calls at the call's entry (`V3_…`, `V6_…`): the first call reads the node
  features and their guarded neighbourhood sum, the second the first call's result and its guarded neighbourhood sum,
  each with its own weights and biases as launched.

  The outlined function's operations move their operands through buffers typed by a reference's declared type; sent
  there and read back, a value is unchanged (`ofBuf_toBuf`).
-/
import proofs.«404881_j50886772523363_1_alg».proof.Proof.Gen.KernelIdeal.Frame
import proofs.«404881_j50886772523363_1_alg».proof.Proof.HostDefs
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F]

/-! ## Values through typed references -/

/-- Contents sent to a typed reference's buffer and read back are unchanged. -/
theorem ofBuf_toBuf {Val : EltTy → Type} {T : BufTy} (x : TRef sig T) (v : T.Contents Val) : x.ofBuf (x.toBuf v) = v := by
  obtain ⟨r, h, a, b⟩ := x
  subst h
  rfl

theorem toBuf_v4 (v : (⟨S1600000x128, .f32⟩ : BufTy).Contents (Elt F)) :
    (TRef.of (T := ⟨S1600000x128, .f32⟩) main_v4).toBuf v = v := rfl
theorem toBuf_v9 (v : (⟨S1600000x128, .f32⟩ : BufTy).Contents (Elt F)) :
    (TRef.of (T := ⟨S1600000x128, .f32⟩) main_v9).toBuf v = v := rfl
theorem ofBuf_v1 (w : main_v1.ty.Contents (Elt F)) : (TRef.of (T := ⟨S1600000, .i32⟩) main_v1).ofBuf w = w := rfl
theorem ofBuf_arg0 (w : main_arg0.ty.Contents (Elt F)) : (TRef.of (T := ⟨S100000x128, .f32⟩) main_arg0).ofBuf w = w := rfl
theorem ofBuf_v8 (w : main_v8.ty.Contents (Elt F)) : (TRef.of (T := ⟨S100000x128, .f32⟩) main_v8).ofBuf w = w := rfl

/-! ## The stretches, each from arbitrary contents `W` -/

variable (W : Valuation τ sig (Elt F))

/-- The first stretch slices the edge list: its source row … -/
theorem slice_src : StableHlo.after hostOps0 W (Proc.devRef .tc main_v1) = src (W (Proc.devRef .tc main_arg1)) := by
  dsimp only [hostOps0]
  after_results <;> rfl
/-- … and its destination row. -/
theorem slice_dst : StableHlo.after hostOps0 W (Proc.devRef .tc main_v3) = dst (W (Proc.devRef .tc main_arg1)) := by
  dsimp only [hostOps0]
  after_results <;> rfl

set_option maxHeartbeats 1000000 in
/-- The outlined `jnp.take` before the first call: the guarded row gather of the node features. -/
theorem take0 : StableHlo.after hostOps0_1 W (Proc.devRef .tc main_v4)
    = takeFill (W (Proc.devRef .tc main_arg0)) (wrapIdx (W (Proc.devRef .tc main_v1))) := by
  unfold takeFill inRange wrapIdx
  dsimp only [hostOps0_1]
  after_results_simp
  simp only [ofBuf_toBuf, toBuf_v4, ofBuf_v1, ofBuf_arg0]

set_option maxHeartbeats 1000000 in
/-- The outlined `jnp.take` before the second call: the guarded row gather of the first call's result. -/
theorem take1 : StableHlo.after hostOps1 W (Proc.devRef .tc main_v9)
    = takeFill (W (Proc.devRef .tc main_v8)) (wrapIdx (W (Proc.devRef .tc main_v1))) := by
  unfold takeFill inRange wrapIdx
  dsimp only [hostOps1]
  after_results_simp
  simp only [ofBuf_toBuf, toBuf_v9, ofBuf_v1, ofBuf_v8]

/-- The scatter-add before the first call. -/
theorem scatter0 : StableHlo.after hostOps0_2 W (Proc.devRef .tc main_v7)
    = scatterRows (W (Proc.devRef .tc main_v3)) (W (Proc.devRef .tc main_v4)) := by
  dsimp only [hostOps0_2]
  after_results <;> rfl
/-- The scatter-add before the second call. -/
theorem scatter1 : StableHlo.after hostOps1_1 W (Proc.devRef .tc main_v12)
    = scatterRows (W (Proc.devRef .tc main_v3)) (W (Proc.devRef .tc main_v9)) := by
  dsimp only [hostOps1_1]
  after_results <;> rfl

/-! ## The two calls' operand arrays at entry -/

variable (m : (ℓ : Loc nD τ sig) → Buf (Elt F) ℓ) (ρ : Dev nD → PrngReg)

/-- The source row, still there after the three stretches before the first call. -/
theorem W3_v1 (c : Dev nD) : W3 m ρ c (Proc.devRef .tc main_v1) = src (m ((c : Thread nD τ).loc main_arg1)) := by
  dsimp only [W3, W2, W1, W0, hostOps0_2, hostOps0_1, hostOps0]
  after_results <;> rfl
/-- The destination row likewise. -/
theorem W3_v3 (c : Dev nD) : W3 m ρ c (Proc.devRef .tc main_v3) = dst (m ((c : Thread nD τ).loc main_arg1)) := by
  dsimp only [W3, W2, W1, W0, hostOps0_2, hostOps0_1, hostOps0]
  after_results <;> rfl

theorem V3_arg0 (c : Dev nD) : V3 m ρ c main_arg0 = m ((c : Thread nD τ).loc main_arg0) := by
  dsimp only [V3, W3, W2, W1, W0, hostOps0_2, hostOps0_1, hostOps0]
  after_results <;> rfl
theorem V3_arg2 (c : Dev nD) : V3 m ρ c main_arg2 = m ((c : Thread nD τ).loc main_arg2) := by
  dsimp only [V3, W3, W2, W1, W0, hostOps0_2, hostOps0_1, hostOps0]
  after_results <;> rfl
theorem V3_arg3 (c : Dev nD) : V3 m ρ c main_arg3 = m ((c : Thread nD τ).loc main_arg3) := by
  dsimp only [V3, W3, W2, W1, W0, hostOps0_2, hostOps0_1, hostOps0]
  after_results <;> rfl
theorem V3_arg4 (c : Dev nD) : V3 m ρ c main_arg4 = m ((c : Thread nD τ).loc main_arg4) := by
  dsimp only [V3, W3, W2, W1, W0, hostOps0_2, hostOps0_1, hostOps0]
  after_results <;> rfl
theorem V3_arg5 (c : Dev nD) : V3 m ρ c main_arg5 = m ((c : Thread nD τ).loc main_arg5) := by
  dsimp only [V3, W3, W2, W1, W0, hostOps0_2, hostOps0_1, hostOps0]
  after_results <;> rfl

/-- The first call's second operand: the guarded neighbourhood sum of the node features. -/
theorem V3_v7 (c : Dev nD) : V3 m ρ c main_v7
    = scatterRows (dst (m ((c : Thread nD τ).loc main_arg1)))
        (takeFill (m ((c : Thread nD τ).loc main_arg0)) (wrapIdx (src (m ((c : Thread nD τ).loc main_arg1))))) := by
  show StableHlo.after hostOps0_2 (W2 m ρ c) (Proc.devRef .tc main_v7) = _
  rw [scatter0 (W2 m ρ c)]
  have h3 : W2 m ρ c (Proc.devRef .tc main_v3) = dst (m ((c : Thread nD τ).loc main_arg1)) := by
    dsimp only [W2, W1, W0, hostOps0_1, hostOps0]
    after_results <;> rfl
  have h4 : W2 m ρ c (Proc.devRef .tc main_v4)
      = takeFill (m ((c : Thread nD τ).loc main_arg0)) (wrapIdx (src (m ((c : Thread nD τ).loc main_arg1)))) := by
    show StableHlo.after hostOps0_1 (W1 m ρ c) (Proc.devRef .tc main_v4) = _
    rw [take0 (W1 m ρ c)]
    have h0 : W1 m ρ c (Proc.devRef .tc main_arg0) = m ((c : Thread nD τ).loc main_arg0) := by
      dsimp only [W1, W0, hostOps0]
      after_results <;> rfl
    have h1 : W1 m ρ c (Proc.devRef .tc main_v1) = src (m ((c : Thread nD τ).loc main_arg1)) :=
      slice_src (W0 m ρ c)
    rw [h0, h1]
  rw [h3, h4]

/-- The second call's first operand is what the first call left in its result array. -/
theorem V6_v8 (c : Dev nD) : V6 m ρ c main_v8 = (dat0 (V3 m ρ) c).arrAt 6 cfg0.N := by
  have h : W6 m ρ c (Proc.devRef .tc main_v8) = W4 m ρ c (Proc.devRef .tc main_v8) := by
    dsimp only [W6, W5, hostOps1_1, hostOps1]
    after_results <;> rfl
  exact h.trans (W4_arr m ρ c 6)

/-- The second call's second operand: the guarded neighbourhood sum of the first call's result. -/
theorem V6_v12 (c : Dev nD) : V6 m ρ c main_v12
    = scatterRows (dst (m ((c : Thread nD τ).loc main_arg1)))
        (takeFill ((dat0 (V3 m ρ) c).arrAt 6 cfg0.N) (wrapIdx (src (m ((c : Thread nD τ).loc main_arg1))))) := by
  show StableHlo.after hostOps1_1 (W5 m ρ c) (Proc.devRef .tc main_v12) = _
  rw [scatter1 (W5 m ρ c)]
  have h3 : W5 m ρ c (Proc.devRef .tc main_v3) = dst (m ((c : Thread nD τ).loc main_arg1)) := by
    have e : W5 m ρ c (Proc.devRef .tc main_v3) = W4 m ρ c (Proc.devRef .tc main_v3) := by
      dsimp only [W5, hostOps1]
      after_results <;> rfl
    rw [e, W4_of_ne m ρ c main_v3 (by decide)]
    exact W3_v3 m ρ c
  have h9 : W5 m ρ c (Proc.devRef .tc main_v9)
      = takeFill ((dat0 (V3 m ρ) c).arrAt 6 cfg0.N) (wrapIdx (src (m ((c : Thread nD τ).loc main_arg1)))) := by
    show StableHlo.after hostOps1 (W4 m ρ c) (Proc.devRef .tc main_v9) = _
    rw [take1 (W4 m ρ c)]
    have h8 : W4 m ρ c (Proc.devRef .tc main_v8) = (dat0 (V3 m ρ) c).arrAt 6 cfg0.N := W4_arr m ρ c 6
    have h1 : W4 m ρ c (Proc.devRef .tc main_v1) = src (m ((c : Thread nD τ).loc main_arg1)) :=
      (W4_of_ne m ρ c main_v1 (by decide)).trans (W3_v1 m ρ c)
    rw [h8, h1]
  rw [h3, h9]

/-- The second call's weights and biases are as launched: an input window's array is unchanged by its call, and the
    generated frame already walks each argument back from the end of the run to the launch. -/
theorem V6_arg6 (c : Dev nD) : V6 m ρ c main_arg6 = m ((c : Thread nD τ).loc main_arg6) :=
  ((W7_arr m ρ c 2).trans (((dat1 (V6 m ρ) c).arrAt_in 2 rfl _).trans (A_eq1 (V6 m ρ) c 2))).symm.trans (W7_main_arg6 m ρ c)
theorem V6_arg7 (c : Dev nD) : V6 m ρ c main_arg7 = m ((c : Thread nD τ).loc main_arg7) :=
  ((W7_arr m ρ c 3).trans (((dat1 (V6 m ρ) c).arrAt_in 3 rfl _).trans (A_eq1 (V6 m ρ) c 3))).symm.trans (W7_main_arg7 m ρ c)
theorem V6_arg8 (c : Dev nD) : V6 m ρ c main_arg8 = m ((c : Thread nD τ).loc main_arg8) :=
  ((W7_arr m ρ c 4).trans (((dat1 (V6 m ρ) c).arrAt_in 4 rfl _).trans (A_eq1 (V6 m ρ) c 4))).symm.trans (W7_main_arg8 m ρ c)
theorem V6_arg9 (c : Dev nD) : V6 m ρ c main_arg9 = m ((c : Thread nD τ).loc main_arg9) :=
  ((W7_arr m ρ c 5).trans (((dat1 (V6 m ρ) c).arrAt_in 5 rfl _).trans (A_eq1 (V6 m ρ) c 5))).symm.trans (W7_main_arg9 m ρ c)

end Cert.KernelIdeal.HostSide

end
-- ==== Proof.TakeInRange.lean ====
/-
  Under the precondition the kernel's guarded row gather is the plain gather.

  The kernel gathers neighbour rows with `jnp.take`, which guards the gather: a source index is first wrapped once if
  negative (`s < 0 ? s + 100000 : s`), the gather reads the row at the wrapped index, and a row whose wrapped index falls
  outside 0 … 99999 is replaced by a fill value. The reference gathers with the wrapped index and no guard. The two agree
  exactly when every wrapped index is in range, and the precondition says every source index `s` has
  `0 ≤ s < 100000`: then `s` is not negative, the wrapped index is `s` itself, both comparisons of the guard hold at every
  edge, their conjunction reduced along the unit axis is the all-ones mask, and the selection keeps the gathered row
  everywhere (`takeFill_eq_gather`).

  `src_in_range` reads the range fact off the printed precondition: its last conjunct is `jnp.all` of the two signed
  comparisons of the source row of `edge_index` with 0 and with 100000.
-/
import proofs.«404881_j50886772523363_1_alg».proof.Proof.HostDefs
import proofs.«404881_j50886772523363_1_alg».proof.Pre_finite_inputs
import proofs.«404881_j50886772523363_1_alg».proof.Proof.Gen.Pre_finite_inputs
import Idealize.ShloMosaic.Lib.ReduceAll
import Idealize.ShloMosaic.Lib.Pipeline.Value
import Idealize.ShloMosaic.Lib.ValueIdx

set_option maxRecDepth 16384

noncomputable section

namespace Cert.KernelIdeal.HostSide

open Cert.KernelIdeal Cert.KernelIdeal.Gen Idealize.ShloMosaic Idealize.ShloMosaic.ValueIdx

variable {F : FTy → Type} [FloatOps F]

/-! ## An `and`-reduction of ones is one -/

theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A `stablehlo.reduce` by `and` from the constant one over an array of ones is one at every result index. -/
theorem reduce_andi_one {s t u : Shape} {axes : List (Fin s.rank)} (x : s.Idx → BitVec 1) (init : u.Idx → BitVec 1)
    (h : s.ReducesTo axes t) (hu : 0 < u.numel) (j : t.Idx) (hinit : ∀ k, init k = 1#1) (hx : ∀ i, x i = 1#1) :
    Host.reduce IntOp.andi x init h hu j = 1#1 := by
  rw [Host.reduce_eq_foldl, hinit]
  exact foldl_andi_one x hx _

/-! ## The guard under the range fact -/

/-- The position along the edge axis of an index of the [1600000, 1] column. -/
abbrev edgeOf (q : S1600000x1.Idx) : S1600000.Idx := fun a => match a with
  | ⟨0, _⟩ => ⟨(q 0).val, (q 0).isLt⟩

/-- A source index that is not negative is its own wrapped index. -/
theorem wrapIdx_apply (s : IVec S1600000 32) (hs : ∀ e : S1600000.Idx, 0 ≤ (s e).toInt) (q : S1600000x1.Idx) :
    wrapIdx s q = s (edgeOf q) := by
  unfold wrapIdx
  rw [broadcastInDim_apply _ bcast_S1600000_S1600000x1_0 _ q (edgeOf q) (fun a => match a with
    | ⟨0, _⟩ => by show (q 0).val = if (1600000 : Nat) = 1 then 0 else (q 0).val; rw [if_neg (by decide)])]
  rw [select_apply]
  have hlt : ¬ cmpi .slt s (broadcastInDim S1600000 ![] bcast_S_S1600000 (constantI S_ 32 0#32)) (edgeOf q) = 1#1 := by
    show ¬ IntOp.cmpi .slt (s (edgeOf q)) 0#32 = 1#1
    rw [IntOp.cmpi_slt]
    have := hs (edgeOf q)
    show ¬ (s (edgeOf q)).toInt < 0
    omega
  exact if_neg hlt

/-- With every source index in 0 … 99999 the guard is the all-ones mask. -/
theorem inRange_wrapIdx (s : IVec S1600000 32) (hs : ∀ e : S1600000.Idx, 0 ≤ (s e).toInt ∧ (s e).toInt < 100000)
    (p : S1600000.Idx) : inRange (wrapIdx s) p = 1#1 := by
  unfold inRange
  refine reduce_andi_one _ _ _ _ p (fun _ => rfl) fun q => ?_
  show IntOp.andi (IntOp.cmpi .sge (wrapIdx s q) 0#32) (IntOp.cmpi .sle (wrapIdx s q) 99999#32) = 1#1
  rw [wrapIdx_apply s (fun e => (hs e).1) q, IntOp.andi_eq_one, IntOp.cmpi_sge, IntOp.cmpi_sle]
  have h := hs (edgeOf q)
  refine ⟨?_, ?_⟩
  · show (0 : Int) ≤ (s (edgeOf q)).toInt
    exact h.1
  · show (s (edgeOf q)).toInt ≤ 99999
    omega

/-- The position along the edge axis of an index of the [1600000, 128] array of gathered rows. -/
abbrev edgeOfRow (i : S1600000x128.Idx) : S1600000.Idx := fun a => match a with
  | ⟨0, _⟩ => ⟨(i 0).val, (i 0).isLt⟩

/-- WITH EVERY SOURCE INDEX IN RANGE the guarded gather keeps every gathered row: it is the plain gather at the wrapped
    indices. -/
theorem takeFill_eq_gather (h : FVec F S100000x128 .f32) (s : IVec S1600000 32)
    (hs : ∀ e : S1600000.Idx, 0 ≤ (s e).toInt ∧ (s e).toInt < 100000) :
    takeFill h (wrapIdx s) = Host.gather gather_S100000x128_S1600000x1_S1600000x128_1_0_n_n_0_1_1128 h (wrapIdx s) := by
  funext i
  unfold takeFill
  rw [select_apply]
  have hm : broadcastInDim S1600000x128 ![0] bcast_S1600000_S1600000x128_0 (inRange (wrapIdx s)) i = 1#1 := by
    rw [broadcastInDim_apply _ bcast_S1600000_S1600000x128_0 _ i (edgeOfRow i) (fun a => match a with
      | ⟨0, _⟩ => by show (i 0).val = if (1600000 : Nat) = 1 then 0 else (i 0).val; rw [if_neg (by decide)])]
    exact inRange_wrapIdx s hs _
  exact if_pos hm

/-! ## The range fact, read off the printed precondition -/

instance : Subsingleton Cert.Pre_finite_inputs.S_.Idx := ⟨fun a b => funext fun d => d.elim0⟩

/-- The precondition's last conjunct is `jnp.all` over the edges of `0 ≤ s` and `s < 100000` (signed comparisons of the
    source row of `edge_index`): where the precondition holds, every source index is in range of the node axis. -/
theorem src_in_range (x0 : FVec F Cert.Pre_finite_inputs.S100000x128 .f32) (x1 : IVec Cert.Pre_finite_inputs.S2x1600000 32)
    (x2 : FVec F Cert.Pre_finite_inputs.S128x128 .f32) (x3 : FVec F Cert.Pre_finite_inputs.S128 .f32)
    (x4 : FVec F Cert.Pre_finite_inputs.S128x128 .f32) (x5 : FVec F Cert.Pre_finite_inputs.S128 .f32)
    (x6 : FVec F Cert.Pre_finite_inputs.S128x64 .f32) (x7 : FVec F Cert.Pre_finite_inputs.S64 .f32)
    (x8 : FVec F Cert.Pre_finite_inputs.S64x64 .f32) (x9 : FVec F Cert.Pre_finite_inputs.S64 .f32)
    (h : Cert.Pre_finite_inputs.fn (F := F) x0 x1 x2 x3 x4 x5 x6 x7 x8 x9 = fun _ => 1#1) (e : S1600000.Idx) :
    0 ≤ (src x1 e).toInt ∧ (src x1 e).toInt < 100000 := by
  have h0 := congrFun h ValueIdx.ix0
  dsimp only [Cert.Pre_finite_inputs.fn, Cert.Pre_finite_inputs.fn_part1, Cert.Pre_finite_inputs.fn_part2,
    Cert.Pre_finite_inputs.fn_part3] at h0
  change IntOp.andi _ _ = 1#1 at h0
  have h1 := (IntOp.andi_eq_one.1 h0).2
  have h2 := Host.reduce_andi_all _ _ _ _ _ h1 e
  change IntOp.andi (IntOp.cmpi .sge (src x1 e) 0#32) (IntOp.cmpi .slt (src x1 e) 100000#32) = 1#1 at h2
  obtain ⟨ha, hb⟩ := IntOp.andi_eq_one.1 h2
  have ha' := IntOp.cmpi_sge.1 ha
  have hb' := IntOp.cmpi_slt.1 hb
  have z0 : (0#32 : BitVec 32).toInt = 0 := by decide
  have z1 : (100000#32 : BitVec 32).toInt = 100000 := by decide
  rw [z0] at ha'
  rw [z1] at hb'
  exact ⟨ha', hb'⟩

end Cert.KernelIdeal.HostSide

end
-- ==== Proof.KernelValue.lean ====
/-
  The kernel program's result, as a function of the launch memory.

  Write `x` for the node features, `e` for the edge list and `agg h e` for the neighbourhood sum of `h` over `e`. Under the
  precondition (every source index of `e` in 0 … 99999) the guarded gathers of the kernel program are plain gathers, so
  the first pallas_call reads `x` and `agg x e` and leaves
      h₁ = dense x (agg x e) W1 b1 W2 b2
  in its result array (`region0`), and the second reads `h₁` and `agg h₁ e` and leaves
      h₂ = dense h₁ (agg h₁ e) W3 b3 W4 b4
  in the program's result (`region1`). The run of @main, re-posted with this value (`run`), is what the equivalence with
  the reference cites.
-/
import proofs.«404881_j50886772523363_1_alg».proof.Defs
import proofs.«404881_j50886772523363_1_alg».proof.Proof.Body0
import proofs.«404881_j50886772523363_1_alg».proof.Proof.Body1
import proofs.«404881_j50886772523363_1_alg».proof.Proof.HostStages
import proofs.«404881_j50886772523363_1_alg».proof.Proof.TakeInRange
import proofs.«404881_j50886772523363_1_alg».proof.Proof.KernelRun

set_option maxRecDepth 16384

noncomputable section

namespace Cert.KernelIdeal.Value

open Cert.KernelIdeal Cert.KernelIdeal.Gen Cert.KernelIdeal.HostSide
open Idealize.ShloMosaic Idealize.ShloMosaic.TcCoe Idealize.SL.Sem

variable (m : (ℓ : Loc nD τ sig) → Buf (Elt Ideal) ℓ) (ρ : Dev nD → PrngReg)

/-- The first layer's result: the dense part of the node features and their neighbourhood sum. -/
def layer1 (c : Dev nD) : S100000x128.Idx → EReal :=
  Cert.Gin.dense (N := 100000) (K := 128) (H := 128) (O := 128)
    (m ((c : Thread nD τ).loc main_arg0)) (agg (F := Ideal) (m ((c : Thread nD τ).loc main_arg0)) (m ((c : Thread nD τ).loc main_arg1)))
    (m ((c : Thread nD τ).loc main_arg2)) (m ((c : Thread nD τ).loc main_arg3))
    (m ((c : Thread nD τ).loc main_arg4)) (m ((c : Thread nD τ).loc main_arg5))

/-- The second layer's result: the dense part of the first layer's result and of its neighbourhood sum. -/
def layer2 (c : Dev nD) : S100000x64.Idx → EReal :=
  Cert.Gin.dense (N := 100000) (K := 128) (H := 64) (O := 64)
    (layer1 m c) (agg (F := Ideal) (layer1 m c) (m ((c : Thread nD τ).loc main_arg1)))
    (m ((c : Thread nD τ).loc main_arg6)) (m ((c : Thread nD τ).loc main_arg7))
    (m ((c : Thread nD τ).loc main_arg8)) (m ((c : Thread nD τ).loc main_arg9))

/-- The precondition's range fact at core `c`'s edge list. -/
theorem src_ok (hpre : Cert.Pre_KernelIdeal (hPre_finite_inputs := Cert.Pre_finite_inputs.Gen.facts) m) (c : Dev nD)
    (e : S1600000.Idx) :
    0 ≤ (src (m ((c : Thread nD τ).loc main_arg1)) e).toInt ∧ (src (m ((c : Thread nD τ).loc main_arg1)) e).toInt < 100000 :=
  src_in_range (F := Ideal) _ _ _ _ _ _ _ _ _ _ (hpre c) e

/-- What the first pallas_call leaves in its result array. -/
theorem region0 (hpre : Cert.Pre_KernelIdeal (hPre_finite_inputs := Cert.Pre_finite_inputs.Gen.facts) m) (c : Dev nD) :
    (dat0 (V3 m ρ) c).arrAt 6 cfg0.N = layer1 m c := by
  rw [Cert.KernelIdeal.Body0.final (V3 m ρ) c]
  unfold Cert.KernelIdeal.Body0.result layer1
  rw [V3_arg0, V3_v7, V3_arg2, V3_arg3, V3_arg4, V3_arg5, takeFill_eq_gather _ _ (src_ok m hpre c)]
  rfl

/-- What the second pallas_call leaves in the program's result. -/
theorem region1 (hpre : Cert.Pre_KernelIdeal (hPre_finite_inputs := Cert.Pre_finite_inputs.Gen.facts) m) (c : Dev nD) :
    (dat1 (V6 m ρ) c).arrAt 6 cfg1.N = layer2 m c := by
  rw [Cert.KernelIdeal.Body1.final (V6 m ρ) c]
  unfold Cert.KernelIdeal.Body1.result layer2
  rw [V6_v8, V6_v12, V6_arg6, V6_arg7, V6_arg8, V6_arg9, region0 m ρ hpre c, takeFill_eq_gather _ _ (src_ok m hpre c)]
  rfl

/-- THE RUN of the kernel program under the precondition: it terminates, nothing faulting, with its result at `layer2`
    of the launch memory and its arguments unchanged. -/
theorem run (hpre : Cert.Pre_KernelIdeal (hPre_finite_inputs := Cert.Pre_finite_inputs.Gen.facts) m) :
    θ_run defs (onTc (τ := τ) (main (F := Ideal))) ⟨m, fun _ => 0, ρ⟩ (fun r => ∀ c : Dev nD,
      r.2.mem ((c.tc : Thread nD τ).loc main_v13) = layer2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans ((W7_arr m ρ c 6).trans (region1 m ρ hpre c)), (h c).2⟩)
    (Cert.KernelIdeal.GenP.run (F := Ideal) m ρ)

end Cert.KernelIdeal.Value

end
-- ==== Proof.lean ====
/-
  Two graph-isomorphism layers, each `relu(MLP(x + Σ_{j→i} x_j))`, computed by a fused kernel a slab of rows at a time and
  by plain array operations: the two programs end with the same result over the extended reals.

  The kernel program computes each layer's neighbourhood sum on the host and the dense part (the sum with the node's own
  features, two matrix products with biases, two rectifications) in a pallas_call over ten slabs of 10000 nodes; the
  reference computes the same with whole-array operations. Index by index both dense parts are
      max ( Σ_k max ( Σ_l (x r l + a r l) · Wa l k + ba k , 0 ) · Wb k c + bb c , 0 )
  (`Gin.dense`): the kernel's format changes in front of its products are the identity over the extended reals, a
  product into a zero accumulator and a `dot_general` are the same finite sum of products in the same order, and the
  layer's row `r` depends on row `r` of its operands only, so ten slabs give the whole array. No law of arithmetic is
  used beyond that: the two sides are the same expression, and the inputs' finiteness is not needed.

  The neighbourhood sums differ in one respect: the kernel gathers neighbour rows with a GUARDED gather, which replaces
  a row whose (once wrapped) source index is outside 0 … 99999 by a fill value, where the reference's gather reads the
  row at the clamped index. The precondition states that every source index is in range of the node axis it indexes;
  under it the guard keeps every gathered row and the two neighbourhood sums are one function of the features and the
  edge list (`HostSide.takeFill_eq_gather`, `RefValue.agg1_eq`, `RefValue.agg2_eq`).

  The frames of the two kernel programs are the generated ones; the reference's frame is its generated run with the
  result dropped; the idealization rewrote no operation, so there is nothing to preserve.
-/
import proofs.«404881_j50886772523363_1_alg».proof.Defs
import proofs.«404881_j50886772523363_1_alg».proof.Proof.Gen.Kernel
import proofs.«404881_j50886772523363_1_alg».proof.Proof.Gen.Kernel.Skeleton
import proofs.«404881_j50886772523363_1_alg».proof.Proof.Gen.Kernel.Launch
import proofs.«404881_j50886772523363_1_alg».proof.Proof.Gen.Kernel.Points
import proofs.«404881_j50886772523363_1_alg».proof.Proof.Gen.Kernel.Frame
import proofs.«404881_j50886772523363_1_alg».proof.Proof.Gen.KernelIdeal
import proofs.«404881_j50886772523363_1_alg».proof.Proof.Gen.KernelIdeal.Skeleton
import proofs.«404881_j50886772523363_1_alg».proof.Proof.Gen.KernelIdeal.Launch
import proofs.«404881_j50886772523363_1_alg».proof.Proof.Gen.KernelIdeal.Points
import proofs.«404881_j50886772523363_1_alg».proof.Proof.Gen.KernelIdeal.Frame
import proofs.«404881_j50886772523363_1_alg».proof.Proof.Gen.ReferenceIdeal
import proofs.«404881_j50886772523363_1_alg».proof.Proof.Gen.Pre_finite_inputs
import proofs.«404881_j50886772523363_1_alg».proof.Proof.Gen.ReferenceIdeal.Run
import proofs.«404881_j50886772523363_1_alg».proof.Proof.Gen.ReferenceIdeal.Read
import proofs.«404881_j50886772523363_1_alg».proof.Proof.RefLayer
import proofs.«404881_j50886772523363_1_alg».proof.Proof.Bridge
import proofs.«404881_j50886772523363_1_alg».proof.Proof.KernelValue
import Idealize.ShloMosaic.Adequacy
import Idealize.ShloMosaic.Init

noncomputable section

namespace Cert.Proof

open Idealize.ShloMosaic Idealize.SL.Sem

/-- The reference's result, as a function of its launch memory, is the kernel program's function of the same arrays:
    each layer the dense part of its input and of that input's neighbourhood sum. -/
theorem reference_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v45 (F := Ideal) m' c = Cert.KernelIdeal.Value.layer2 m c := by
  rw [Cert.ReferenceIdeal.Read.val_main_v45_eq, Cert.ReferenceIdeal.RefValue.layer2, Cert.ReferenceIdeal.RefValue.agg2_eq,
    Cert.ReferenceIdeal.RefValue.layer1, Cert.ReferenceIdeal.RefValue.agg1_eq, h0, h1, h2, h3, h4, h5, h6, h7, h8, h9]
  rfl

/-- At the ideal values both programs run to the end, nothing faulting, the arguments unchanged, with the same result:
    the second layer's dense part (`Value.layer2`) of the kernel program's launch memory. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Value.layer2 m c, Cert.KernelIdeal.Value.run m ρ hpre, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  exact reference_result m m' c h0 h1 h2 h3 h4 h5 h6 h7 h8 h9

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
